-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x4096 : Shape := ⟨3, ![16, 2048, 4096]⟩
abbrev S16 : Shape := ⟨1, ![16]⟩
abbrev S64x4096x64 : Shape := ⟨3, ![64, 4096, 64]⟩
abbrev S64x64x4096 : Shape := ⟨3, ![64, 64, 4096]⟩
abbrev S_ : Shape := ⟨0, ![]⟩

class Facts : Prop where
  bcast_S_S16x2048x4096 : S_.BroadcastsInDim S16x2048x4096 (![] : Fin 0 → Fin S16x2048x4096.rank)
  reducesTo_S16x2048x4096_S_d0_1_2 : S16x2048x4096.ReducesTo [0, 1, 2] S_
  h_S_ : 0 < S_.numel
  bcast_S_S64x4096x64 : S_.BroadcastsInDim S64x4096x64 (![] : Fin 0 → Fin S64x4096x64.rank)
  reducesTo_S64x4096x64_S_d0_1_2 : S64x4096x64.ReducesTo [0, 1, 2] S_
  bcast_S_S64x64x4096 : S_.BroadcastsInDim S64x64x4096 (![] : Fin 0 → Fin S64x64x4096.rank)
  reducesTo_S64x64x4096_S_d0_1_2 : S64x64x4096.ReducesTo [0, 1, 2] S_
  bcast_S_S16 : S_.BroadcastsInDim S16 (![] : Fin 0 → Fin S16.rank)
  reducesTo_S16_S_d0 : S16.ReducesTo [0] S_

variable [Facts]

def fn_part1 {F : FTy → Type} [FloatOps F] (main_arg1 : IVec S16 32) (main_v13 : IVec S_ 1) (main_v15 : IVec S16 1) (main_c_5 : IVec S_ 1) : IVec S_ 1 :=
  let main_v16 : IVec S_ 1 := (fun x v => Host.reduce IntOp.andi x v reducesTo_S16_S_d0 h_S_) main_v15 main_c_5
  let main_v17 : IVec S_ 1 := andi main_v13 main_v16
  let main_c_6 : IVec S_ 32 := constantI S_ 32 64#32
  let main_v18 : IVec S16 32 := broadcastInDim S16 ![] bcast_S_S16 main_c_6
  let main_v19 : IVec S16 1 := cmpi .slt main_arg1 main_v18
  let main_c_7 : IVec S_ 1 := constantI S_ 1 1#1
  let main_v20 : IVec S_ 1 := (fun x v => Host.reduce IntOp.andi x v reducesTo_S16_S_d0 h_S_) main_v19 main_c_7
  let main_v21 : IVec S_ 1 := andi main_v17 main_v20
  main_v21

def fn {F : FTy → Type} [FloatOps F] (main_arg0 : FVec F S16x2048x4096 .f32) (main_arg1 : IVec S16 32) (main_arg2 : FVec F S64x4096x64 .f32) (main_arg3 : FVec F S64x64x4096 .f32) : IVec S_ 1 :=
  let main_v0 : FVec F S16x2048x4096 .f32 := Host.absf main_arg0
  let main_cst : FVec F S_ .f32 := constant S_ .f32 0x7F800000#32
  let main_v1 : FVec F S16x2048x4096 .f32 := broadcastInDim S16x2048x4096 ![] bcast_S_S16x2048x4096 main_cst
  let main_v2 : IVec S16x2048x4096 1 := cmpf .olt main_v0 main_v1
  let main_c : IVec S_ 1 := constantI S_ 1 1#1
  let main_v3 : IVec S_ 1 := (fun x v => Host.reduce IntOp.andi x v reducesTo_S16x2048x4096_S_d0_1_2 h_S_) main_v2 main_c
  let main_v4 : FVec F S64x4096x64 .f32 := Host.absf main_arg2
  let main_cst_0 : FVec F S_ .f32 := constant S_ .f32 0x7F800000#32
  let main_v5 : FVec F S64x4096x64 .f32 := broadcastInDim S64x4096x64 ![] bcast_S_S64x4096x64 main_cst_0
  let main_v6 : IVec S64x4096x64 1 := cmpf .olt main_v4 main_v5
  let main_c_1 : IVec S_ 1 := constantI S_ 1 1#1
  let main_v7 : IVec S_ 1 := (fun x v => Host.reduce IntOp.andi x v reducesTo_S64x4096x64_S_d0_1_2 h_S_) main_v6 main_c_1
  let main_v8 : IVec S_ 1 := andi main_v3 main_v7
  let main_v9 : FVec F S64x64x4096 .f32 := Host.absf main_arg3
  let main_cst_2 : FVec F S_ .f32 := constant S_ .f32 0x7F800000#32
  let main_v10 : FVec F S64x64x4096 .f32 := broadcastInDim S64x64x4096 ![] bcast_S_S64x64x4096 main_cst_2
  let main_v11 : IVec S64x64x4096 1 := cmpf .olt main_v9 main_v10
  let main_c_3 : IVec S_ 1 := constantI S_ 1 1#1
  let main_v12 : IVec S_ 1 := (fun x v => Host.reduce IntOp.andi x v reducesTo_S64x64x4096_S_d0_1_2 h_S_) main_v11 main_c_3
  let main_v13 : IVec S_ 1 := andi main_v8 main_v12
  let main_c_4 : IVec S_ 32 := constantI S_ 32 0#32
  let main_v14 : IVec S16 32 := broadcastInDim S16 ![] bcast_S_S16 main_c_4
  let main_v15 : IVec S16 1 := cmpi .sge main_arg1 main_v14
  let main_c_5 : IVec S_ 1 := constantI S_ 1 1#1
  fn_part1 (F := F) main_arg1 main_v13 main_v15 main_c_5
-- ==== Kernel.lean ====
abbrev S16x2048x4096 : Shape := ⟨3, ![16, 2048, 4096]⟩
abbrev S16 : Shape := ⟨1, ![16]⟩
abbrev S64x4096x64 : Shape := ⟨3, ![64, 4096, 64]⟩
abbrev S64x64x4096 : Shape := ⟨3, ![64, 64, 4096]⟩
abbrev S_ : Shape := ⟨0, ![]⟩
abbrev S1x256x4096 : Shape := ⟨3, ![1, 256, 4096]⟩
abbrev S1x64x4096 : Shape := ⟨3, ![1, 64, 4096]⟩
abbrev S1 : Shape := ⟨1, ![1]⟩
abbrev S1x4096x64 : Shape := ⟨3, ![1, 4096, 64]⟩
abbrev S256x4096 : Shape := ⟨2, ![256, 4096]⟩
abbrev S64x4096 : Shape := ⟨2, ![64, 4096]⟩
abbrev S4096x64 : Shape := ⟨2, ![4096, 64]⟩
abbrev S256x64 : Shape := ⟨2, ![256, 64]⟩

abbrev nBuf : Space → Nat
  | .hbm => 12
  | .vmem => 8
  | .smem => 1
  | _ => 0

abbrev bufTy : (tb : Table) → Fin (tcTables nBuf tb) → BufTy
  | .hbm, ⟨0, _⟩ => ⟨S16x2048x4096, .f32⟩
  | .hbm, ⟨1, _⟩ => ⟨S16, .i32⟩
  | .hbm, ⟨2, _⟩ => ⟨S64x4096x64, .f32⟩
  | .hbm, ⟨3, _⟩ => ⟨S64x64x4096, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S16, .i32⟩
  | .hbm, ⟨8, _⟩ => ⟨S16, .i32⟩
  | .hbm, ⟨9, _⟩ => ⟨S_, .i32⟩
  | .hbm, ⟨10, _⟩ => ⟨S16, .i32⟩
  | .hbm, ⟨11, _⟩ => ⟨S16x2048x4096, .f32⟩
  | .local _ .vmem, ⟨0, _⟩ => ⟨S1x256x4096, .f32⟩
  | .local _ .vmem, ⟨1, _⟩ => ⟨S1x256x4096, .f32⟩
  | .local _ .vmem, ⟨2, _⟩ => ⟨S1x64x4096, .f32⟩
  | .local _ .vmem, ⟨3, _⟩ => ⟨S1x64x4096, .f32⟩
  | .local _ .vmem, ⟨4, _⟩ => ⟨S1x4096x64, .f32⟩
  | .local _ .vmem, ⟨5, _⟩ => ⟨S1x4096x64, .f32⟩
  | .local _ .vmem, ⟨6, _⟩ => ⟨S1x256x4096, .f32⟩
  | .local _ .vmem, ⟨7, _⟩ => ⟨S1x256x4096, .f32⟩
  | .local _ .smem, ⟨0, _⟩ => ⟨S16, .i32⟩
  | _, _ => ⟨S16x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S16.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S16) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S16 : S_.BroadcastsInDim S16 (![] : Fin 0 → Fin S16.rank)
  numel1_S1 : S1.numel = 1
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  bitsLt_bf16_f32 : FTy.bits .bf16 < FTy.bits .f32
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  shapeCasts_S256x4096_S1x256x4096 : S256x4096.ShapeCasts S1x256x4096
  dot_S256x4096_S64x4096_S256x64_1_1_0_0_n_n_wf : DotDims.WF S256x4096 S64x4096 S256x64 [1] [1] [0] [0] [] []
  dot_S256x64_S4096x64_S256x4096_1_1_0_0_n_n_wf : DotDims.WF S256x64 S4096x64 S256x4096 [1] [1] [0] [0] [] []
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S16x2048x4096.size a
  hwx0_0 : ∀ i : grid0.Coords, EltTy.bits .f32 = 32 ∨ (Rect.block (s := S16x2048x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4096.size a ≤ S16x2048x4096.size a
  hwx0_3 : ∀ i : grid0.Coords, EltTy.bits .f32 = 32 ∨ (Rect.block (s := S16x2048x4096) S1x256x4096.size (cc0_transform_3 i) (hinb0_3 i)).WholeWords (EltTy.packing .f32)

variable [Facts₀]

def dot_S256x4096_S64x4096_S256x64_1_1_0_0_n_n : DotDims S256x4096 S64x4096 S256x64 where
  lhsContracting := [1]
  rhsContracting := [1]
  lhsNonContracting := [0]
  rhsNonContracting := [0]
  lhsBatch := []
  rhsBatch := []
  wf := dot_S256x4096_S64x4096_S256x64_1_1_0_0_n_n_wf
def dot_S256x64_S4096x64_S256x4096_1_1_0_0_n_n : DotDims S256x64 S4096x64 S256x4096 where
  lhsContracting := [1]
  rhsContracting := [1]
  lhsNonContracting := [0]
  rhsNonContracting := [0]
  lhsBatch := []
  rhsBatch := []
  wf := dot_S256x64_S4096x64_S256x4096_1_1_0_0_n_n_wf

abbrev spec0_0 : Pipeline.WinSpec sig grid0.rank :=
  Pipeline.WinSpec.ofSpec (Memref.whole main_arg0) S1x256x4096.size reads0_0 false false 2 stage0_0 sem0_0 nbuf0_0 hstage0_0

abbrev spec0_1 : Pipeline.WinSpec sig grid0.rank :=
  Pipeline.WinSpec.ofSpec (Memref.whole main_arg3) S1x64x4096.size reads0_1 false false 2 stage0_1 sem0_1 nbuf0_1 hstage0_1

abbrev spec0_2 : Pipeline.WinSpec sig grid0.rank :=
  Pipeline.WinSpec.ofSpec (Memref.whole main_arg2) S1x4096x64.size reads0_2 false false 2 stage0_2 sem0_2 nbuf0_2 hstage0_2

abbrev spec0_3 : Pipeline.WinSpec sig grid0.rank :=
  Pipeline.WinSpec.ofSpec (Memref.whole main_v1) S1x256x4096.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 k0_off1_inb numel1_S1 pf | 2 => cc0_transform_2 k0_off1_inb numel1_S1 pf | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 pf | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x64x4096.size a ≤ S64x64x4096.size a), EltTy.bits .f32 = 32 ∨ (Rect.block (s := S64x64x4096) S1x64x4096.size (cc0_transform_1 k0_off1_inb numel1_S1 pf i) h).WholeWords (EltTy.packing .f32)) ∧
  (∀ i : grid0.Coords, ∃ h : (∀ a, (cc0_transform_2 k0_off1_inb numel1_S1 pf i a + 1) * S1x4096x64.size a ≤ S64x4096x64.size a), EltTy.bits .f32 = 32 ∨ (Rect.block (s := S64x4096x64) S1x4096x64.size (cc0_transform_2 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok.1 i).elim fun h _ => h a | 2 => fun i a => (hok.2 i).elim fun h _ => h a | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok.1 i).elim fun _ h => h | 2 => fun i => (hok.2 i).elim fun _ h => h | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S16x2048x4096 : Shape := ⟨3, ![16, 2048, 4096]⟩
abbrev S16 : Shape := ⟨1, ![16]⟩
abbrev S64x4096x64 : Shape := ⟨3, ![64, 4096, 64]⟩
abbrev S64x64x4096 : Shape := ⟨3, ![64, 64, 4096]⟩
abbrev S_ : Shape := ⟨0, ![]⟩
abbrev S16x1 : Shape := ⟨2, ![16, 1]⟩
abbrev S16x64x4096 : Shape := ⟨3, ![16, 64, 4096]⟩
abbrev S16x4096x64 : Shape := ⟨3, ![16, 4096, 64]⟩
abbrev S16x2048x64 : Shape := ⟨3, ![16, 2048, 64]⟩

abbrev nBuf : Space → Nat
  | .hbm => 27
  | .vmem => 0
  | .smem => 0
  | _ => 0

abbrev bufTy : (tb : Table) → Fin (tcTables nBuf tb) → BufTy
  | .hbm, ⟨0, _⟩ => ⟨S16x2048x4096, .f32⟩
  | .hbm, ⟨1, _⟩ => ⟨S16, .i32⟩
  | .hbm, ⟨2, _⟩ => ⟨S64x4096x64, .f32⟩
  | .hbm, ⟨3, _⟩ => ⟨S64x64x4096, .f32⟩
  | .hbm, ⟨4, _⟩ => ⟨S_, .i32⟩
  | .hbm, ⟨5, _⟩ => ⟨S16, .i32⟩
  | .hbm, ⟨6, _⟩ => ⟨S16, .i1⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S16, .i32⟩
  | .hbm, ⟨11, _⟩ => ⟨S16x1, .i32⟩
  | .hbm, ⟨12, _⟩ => ⟨S16x64x4096, .f32⟩
  | .hbm, ⟨13, _⟩ => ⟨S_, .i32⟩
  | .hbm, ⟨14, _⟩ => ⟨S16, .i32⟩
  | .hbm, ⟨15, _⟩ => ⟨S16, .i1⟩
  | .hbm, ⟨16, _⟩ => ⟨S_, .i32⟩
  | .hbm, ⟨17, _⟩ => ⟨S16, .i32⟩
  | .hbm, ⟨18, _⟩ => ⟨S16, .i32⟩
  | .hbm, ⟨19, _⟩ => ⟨S16, .i32⟩
  | .hbm, ⟨20, _⟩ => ⟨S16x1, .i32⟩
  | .hbm, ⟨21, _⟩ => ⟨S16x4096x64, .f32⟩
  | .hbm, ⟨22, _⟩ => ⟨S16x2048x64, .f32⟩
  | .hbm, ⟨23, _⟩ => ⟨S16x2048x4096, .f32⟩
  | .hbm, ⟨24, _⟩ => ⟨S_, .f32⟩
  | .hbm, ⟨25, _⟩ => ⟨S16x2048x4096, .f32⟩
  | .hbm, ⟨26, _⟩ => ⟨S16x2048x4096, .f32⟩
  | _, _ => ⟨S16x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S16x1_0 : S16.BroadcastsInDim S16x1 (![0] : Fin 1 → Fin S16x1.rank)
  bcast_S_S16x2048x4096 : S_.BroadcastsInDim S16x2048x4096 (![] : Fin 0 → Fin S16x2048x4096.rank)
  gather_S64x64x4096_S16x1_S16x64x4096_12_0_n_n_0_1_1644096_wf : GatherDims.WF S64x64x4096 S16x1 S16x64x4096 [1, 2] [0] [] [0] [] 1 ![1, 64, 4096]
  gather_S64x4096x64_S16x1_S16x4096x64_12_0_n_n_0_1_1409664_wf : GatherDims.WF S64x4096x64 S16x1 S16x4096x64 [1, 2] [0] [] [0] [] 1 ![1, 4096, 64]
  dot_S16x2048x4096_S16x64x4096_S16x2048x64_2_2_1_1_0_0_wf : DotDims.WF S16x2048x4096 S16x64x4096 S16x2048x64 [2] [2] [1] [1] [0] [0]
  dot_S16x2048x64_S16x4096x64_S16x2048x4096_2_2_1_1_0_0_wf : DotDims.WF S16x2048x64 S16x4096x64 S16x2048x4096 [2] [2] [1] [1] [0] [0]

variable [Facts₀]

def gather_S64x64x4096_S16x1_S16x64x4096_12_0_n_n_0_1_1644096 : GatherDims S64x64x4096 S16x1 S16x64x4096 where
  offsetDims := [1, 2]
  collapsedSliceDims := [0]
  operandBatchingDims := []
  startIndicesBatchingDims := []
  startIndexMap := [0]
  indexVectorDim := 1
  sliceSizes := ![1, 64, 4096]
  wf := gather_S64x64x4096_S16x1_S16x64x4096_12_0_n_n_0_1_1644096_wf
def gather_S64x4096x64_S16x1_S16x4096x64_12_0_n_n_0_1_1409664 : GatherDims S64x4096x64 S16x1 S16x4096x64 where
  offsetDims := [1, 2]
  collapsedSliceDims := [0]
  operandBatchingDims := []
  startIndicesBatchingDims := []
  startIndexMap := [0]
  indexVectorDim := 1
  sliceSizes := ![1, 4096, 64]
  wf := gather_S64x4096x64_S16x1_S16x4096x64_12_0_n_n_0_1_1409664_wf
def dot_S16x2048x4096_S16x64x4096_S16x2048x64_2_2_1_1_0_0 : DotDims S16x2048x4096 S16x64x4096 S16x2048x64 where
  lhsContracting := [2]
  rhsContracting := [2]
  lhsNonContracting := [1]
  rhsNonContracting := [1]
  lhsBatch := [0]
  rhsBatch := [0]
  wf := dot_S16x2048x4096_S16x64x4096_S16x2048x64_2_2_1_1_0_0_wf
def dot_S16x2048x64_S16x4096x64_S16x2048x4096_2_2_1_1_0_0 : DotDims S16x2048x64 S16x4096x64 S16x2048x4096 where
  lhsContracting := [2]
  rhsContracting := [2]
  lhsNonContracting := [1]
  rhsNonContracting := [1]
  lhsBatch := [0]
  rhsBatch := [0]
  wf := dot_S16x2048x64_S16x4096x64_S16x2048x4096_2_2_1_1_0_0_wf

class Facts : Prop extends Facts₀ where

variable [Facts]
-- ==== Proof.IdWords.lean ====
/-
  A 32-bit adapter id in [0, 64).

  The precondition says of every id: id ≥ 0 and id < 64, both signed. Such a word is below 64 read unsigned, its signed
  and unsigned readings agree, clipping it to [0, 63] leaves it unchanged, and so does the index normalisation
  "add 64 if negative". These are the only facts about the integer input either program needs.
-/
import Idealize.ShloMosaic.Lib.StableHlo.Predicate
import Idealize.ShloMosaic.Lib.ValueIdx

namespace Cert.IdWords

open Idealize.ShloMosaic Idealize.ShloMosaic.StableHlo

/-- The two signed compares of the precondition bound the unsigned reading. -/
theorem toNat_lt_of_cmp (w : BitVec 32) (h0 : IntOp.cmpi .sge w 0#32 = 1#1) (h1 : IntOp.cmpi .slt w 64#32 = 1#1) :
    w.toNat < 64 := by
  unfold IntOp.cmpi at h0 h1
  rw [Predicate.ofBool_eq_one_iff] at h0 h1
  simp only [BitVec.slt, BitVec.sle, decide_eq_true_eq] at h0 h1
  have z : (0#32 : BitVec 32).toInt = 0 := by decide
  have s : (64#32 : BitVec 32).toInt = 64 := by decide
  rw [z] at h0; rw [s] at h1
  have hw := w.isLt
  rw [BitVec.toInt_eq_toNat_cond] at h0 h1
  split at h0 <;> omega

/-- A word below 64 reads the same signed and unsigned. -/
theorem toInt_eq (w : BitVec 32) (h : w.toNat < 64) : w.toInt = w.toNat :=
  Predicate.toInt_eq_toNat_of_lt (by omega)

/-- The start index a gather reads off such a word, clamped into 64 rows, is the word. -/
theorem clamp_row (w : BitVec 32) (h : w.toNat < 64) : min w.toInt.toNat (64 - 1) = w.toNat := by
  rw [toInt_eq w h, Int.toNat_natCast]; omega

/-- Clipping to [0, 63] leaves the word unchanged. -/
theorem clip_eq (w : BitVec 32) (h : w.toNat < 64) : IntOp.minsi 63#32 (IntOp.maxsi 0#32 w) = w := by
  have hti := toInt_eq w h
  have z : (0#32 : BitVec 32).toInt = 0 := by decide
  have s : (63#32 : BitVec 32).toInt = 63 := by decide
  have hmax : IntOp.maxsi 0#32 w = w := by
    unfold IntOp.maxsi
    rw [if_neg]
    simp only [BitVec.slt, hti, z, decide_eq_true_eq]; omega
  rw [hmax]
  unfold IntOp.minsi
  rw [if_neg]
  simp only [BitVec.slt, hti, s, decide_eq_true_eq]; omega

/-- The normalisation of a negative index (add the extent when the word is negative) leaves the word unchanged. -/
theorem wrap_eq (w : BitVec 32) (h : w.toNat < 64) (e : BitVec 32) :
    Scalar.select (IntOp.cmpi .slt w 0#32) (IntOp.addi w e) w = w := by
  have hti := toInt_eq w h
  have z : (0#32 : BitVec 32).toInt = 0 := by decide
  have hc : IntOp.cmpi .slt w 0#32 = 0#1 := by
    unfold IntOp.cmpi
    have : w.slt 0#32 = false := by
      simp only [BitVec.slt, hti, z, decide_eq_false_iff_not]; omega
    rw [this]; rfl
  rw [hc]
  unfold Scalar.select
  rw [if_neg (by decide)]

/-- The adapter row of each batch: the id, as a row number of the 64-row tables. -/
def rowOf (ids : IVec ⟨1, ![16]⟩ 32) (h : ∀ b, (ids b).toNat < 64) : Fin 16 → Fin 64 :=
  fun b => ⟨(ids (ValueIdx.ix1 b)).toNat, h _⟩

end Cert.IdWords
-- ==== Proof.PreRange.lean ====
/-
  The precondition, read at one adapter id.

  The printed precondition is a conjunction of five `jnp.all`s; the last two say of the id vector, entry by entry,
  id ≥ 0 and id < 64 as signed compares against broadcast constants. Read at entry b they bound the unsigned reading of
  the b-th id by 64. The three finiteness conjuncts are not used.
-/
import proofs.«410271_j54623394070736_3_alg».proof.Pre_finite_inputs
import proofs.«410271_j54623394070736_3_alg».proof.Proof.IdWords
import Idealize.ShloMosaic.Lib.ReduceAll
import Idealize.ShloMosaic.Lib.ValueIdx
import Idealize.ShloMosaic.Lib.Pipeline.Value

namespace Cert.PreRange

open Idealize.ShloMosaic Idealize.ShloMosaic.ValueIdx Cert.Pre_finite_inputs

variable {F : FTy → Type} [FloatOps F] [Cert.Pre_finite_inputs.Facts]

/-- The scalar shape has one index. -/
instance : Subsingleton S_.Idx := ⟨fun a b => funext fun d => d.elim0⟩

/-- Every adapter id the precondition admits is below 64, read unsigned. -/
theorem id_lt (x : FVec F S16x2048x4096 .f32) (ids : IVec S16 32) (A : FVec F S64x4096x64 .f32)
    (B : FVec F S64x64x4096 .f32) (h : Cert.Pre_finite_inputs.fn (F := F) x ids A B = fun _ => 1#1) (b : S16.Idx) :
    (ids b).toNat < 64 := by
  have e := congrFun h ValueIdx.ix0
  dsimp only [Cert.Pre_finite_inputs.fn, Cert.Pre_finite_inputs.fn_part1] at e
  obtain ⟨e1, hlt⟩ := IntOp.andi_eq_one.1 e
  obtain ⟨-, hge⟩ := IntOp.andi_eq_one.1 e1
  have g0 := Host.reduce_andi_all _ _ _ _ ValueIdx.ix0 hge b
  have g1 := Host.reduce_andi_all _ _ _ _ ValueIdx.ix0 hlt b
  exact IdWords.toNat_lt_of_cmp (ids b) g0 g1

end Cert.PreRange
-- ==== Proof.KTableBits.lean ====
/-
  The prefetched table of the kernel as printed.

  @main clips the ids to [0, 63] before the call and hands the clipped vector to the pipeline as its scalar table; the
  index maps of the B and A windows read entry b of it as the block index along the adapter axis. On ids in [0, 64)
  the clip is the identity, so the table is the id vector, every table-indexed block lies inside its 64-row array, and
  the pipeline's side condition holds.
-/
import proofs.«410271_j54623394070736_3_alg».proof.Proof.Gen.Kernel.Frame
import proofs.«410271_j54623394070736_3_alg».proof.Proof.IdWords
import Idealize.ShloMosaic.Lib.StableHlo.Run

set_option maxRecDepth 16384

noncomputable section

namespace Cert.Kernel.Table

open Cert.Kernel Cert.Kernel.Gen
open Idealize.ShloMosaic Idealize.ShloMosaic.TcCoe Idealize.SL.Sem Idealize.ShloMosaic.ValueIdx Cert.IdWords

variable {F : FTy → Type} [FloatOps F]
variable (m : (ℓ : Loc nD τ sig) → Buf (Elt F) ℓ)

/-- The id vector the program is launched with (the program runs on one device). -/
abbrev ids : IVec S16 32 := m (((0 : Dev nD) : Thread nD τ).loc main_arg1)

/-- The table is the ids clipped to [0, 63]: maximum with 0, then minimum with 63. -/
theorem tbl_eq : (tbl m 0 : IVec S16 32)
    = minsi (broadcastInDim S16 ![] bcast_S_S16 (constantI S_ 32 63#32))
        (maxsi (broadcastInDim S16 ![] bcast_S_S16 (constantI S_ 32 0#32)) (ids m)) := by
  unfold tbl
  show V m 0 main_v0 = _
  dsimp only [V]
  simp only [hostOps0, hostOps0_1, List.flatten_cons, List.flatten_nil, List.append_nil, List.cons_append,
    List.nil_append]
  after_results
  rfl

/-- On ids in [0, 64) the table is the id vector. -/
theorem tbl_at (hid : ∀ b, (ids m b).toNat < 64) (b : S16.Idx) : (tbl m 0 : IVec S16 32) b = ids m b := by
  rw [tbl_eq]
  exact clip_eq _ (hid b)

/-- The batch coordinate of a grid point. -/
def batchOf (i : grid0.Coords) : Fin 16 := i 0

/-- The one index of the unit rectangle at offset b of the [16] table is index b. -/
theorem unit_idx (i : grid0.Coords) (off : Fin 1 → Nat) (hoff : off 0 = (i 0).val)
    (inb : ∀ a, off a + S1.size a ≤ S16.size a) (h1 : 0 < S1.numel) :
    (Rect.unit (s := S16) off S1.size inb).emb (Shape.Idx.first h1) = ix1 (batchOf i) := by
  funext a
  refine Fin.ext ?_
  match a with
  | ⟨0, _⟩ =>
    show off 0 + 1 * (Shape.Idx.first h1 (0 : Fin 1)).val = (i 0).val
    have : (Shape.Idx.first h1 (0 : Fin 1)).val = 0 := by
      have := (Shape.Idx.first h1 (0 : Fin 1)).isLt
      have e : S1.size (0 : Fin 1) = 1 := by decide
      omega
    rw [this, hoff]; omega

/-- The grid's batch coordinate, as a 32-bit word and back, is itself. -/
theorem coord_word (i : grid0.Coords) : (Scalar.indexCast (BitVec.ofNat 32 (i 0).val)).toNat = (i 0).val := by
  show (BitVec.ofNat 32 (i 0).val).toNat = (i 0).val
  have h : (i 0).val < 16 := (i 0).isLt
  simp only [BitVec.toNat_ofNat]
  omega

/-- At grid point (b, n) the B window's block index is (table[b], 0, 0). -/
theorem transform_1_eq (i : grid0.Coords) :
    cc0_transform_1 k0_off1_inb numel1_S1 (tbl m) i = ![((tbl m 0 : IVec S16 32) (ix1 (batchOf i))).toNat, 0, 0] := by
  have e : (tbl m).at 0 (Rect.unit (s := S16) ![(Scalar.indexCast (BitVec.ofNat 32 (i 0).val)).toNat] S1.size (k0_off1_inb i)) numel1_S1
      = (tbl m 0 : IVec S16 32) (ix1 (batchOf i)) :=
    congrArg (tbl m 0 : IVec S16 32) (unit_idx i _ (coord_word i) _ _)
  unfold cc0_transform_1
  dsimp only
  rw [e]
  rfl

/-- At grid point (b, n) the A window's block index is (table[b], 0, 0). -/
theorem transform_2_eq (i : grid0.Coords) :
    cc0_transform_2 k0_off1_inb numel1_S1 (tbl m) i = ![((tbl m 0 : IVec S16 32) (ix1 (batchOf i))).toNat, 0, 0] := by
  have e : (tbl m).at 0 (Rect.unit (s := S16) ![(Scalar.indexCast (BitVec.ofNat 32 (i 0).val)).toNat] S1.size (k0_off1_inb i)) numel1_S1
      = (tbl m 0 : IVec S16 32) (ix1 (batchOf i)) :=
    congrArg (tbl m 0 : IVec S16 32) (unit_idx i _ (coord_word i) _ _)
  unfold cc0_transform_2
  dsimp only
  rw [e]
  rfl

/-- The pipeline's side condition: every table-indexed block of B and of A lies inside its 64-row array. -/
theorem ok_of_range (hid : ∀ b, (ids m b).toNat < 64) : Ok m := by
  have hw : ∀ i : grid0.Coords, ((tbl m 0 : IVec S16 32) (ix1 (batchOf i))).toNat < 64 := fun i => by
    rw [tbl_at m hid]; exact hid _
  refine ⟨fun i => ⟨fun a => ?_, Or.inl rfl⟩, fun i => ⟨fun a => ?_, Or.inl rfl⟩⟩
  · rw [transform_1_eq]
    have := hw i
    fin_cases a <;> simp [S1x64x4096, S64x64x4096] <;> omega
  · rw [transform_2_eq]
    have := hw i
    fin_cases a <;> simp [S1x4096x64, S64x4096x64] <;> omega

end Cert.Kernel.Table

end
-- ==== Proof.KTable.lean ====
/-
  The prefetched table of the idealized kernel.

  @main clips the ids to [0, 63] before the call and hands the clipped vector to the pipeline as its scalar table; the
  index maps of the B and A windows read entry b of it as the block index along the adapter axis. On ids in [0, 64)
  the clip is the identity, so the table is the id vector, every table-indexed block lies inside its 64-row array, and
  the pipeline's side condition holds.
-/
import proofs.«410271_j54623394070736_3_alg».proof.Proof.Gen.KernelIdeal.Frame
import proofs.«410271_j54623394070736_3_alg».proof.Proof.IdWords
import Idealize.ShloMosaic.Lib.StableHlo.Run

set_option maxRecDepth 16384

noncomputable section

namespace Cert.KernelIdeal.Table

open Cert.KernelIdeal Cert.KernelIdeal.Gen
open Idealize.ShloMosaic Idealize.ShloMosaic.TcCoe Idealize.SL.Sem Idealize.ShloMosaic.ValueIdx Cert.IdWords

variable {F : FTy → Type} [FloatOps F]
variable (m : (ℓ : Loc nD τ sig) → Buf (Elt F) ℓ)

/-- The id vector the program is launched with (the program runs on one device). -/
abbrev ids : IVec S16 32 := m (((0 : Dev nD) : Thread nD τ).loc main_arg1)

/-- The table is the ids clipped to [0, 63]: maximum with 0, then minimum with 63. -/
theorem tbl_eq : (tbl m 0 : IVec S16 32)
    = minsi (broadcastInDim S16 ![] bcast_S_S16 (constantI S_ 32 63#32))
        (maxsi (broadcastInDim S16 ![] bcast_S_S16 (constantI S_ 32 0#32)) (ids m)) := by
  unfold tbl
  show V m 0 main_v0 = _
  dsimp only [V]
  simp only [hostOps0, hostOps0_1, List.flatten_cons, List.flatten_nil, List.append_nil, List.cons_append,
    List.nil_append]
  after_results
  rfl

/-- On ids in [0, 64) the table is the id vector. -/
theorem tbl_at (hid : ∀ b, (ids m b).toNat < 64) (b : S16.Idx) : (tbl m 0 : IVec S16 32) b = ids m b := by
  rw [tbl_eq]
  exact clip_eq _ (hid b)

/-- The batch coordinate of a grid point. -/
def batchOf (i : grid0.Coords) : Fin 16 := i 0

/-- The one index of the unit rectangle at offset b of the [16] table is index b. -/
theorem unit_idx (i : grid0.Coords) (off : Fin 1 → Nat) (hoff : off 0 = (i 0).val)
    (inb : ∀ a, off a + S1.size a ≤ S16.size a) (h1 : 0 < S1.numel) :
    (Rect.unit (s := S16) off S1.size inb).emb (Shape.Idx.first h1) = ix1 (batchOf i) := by
  funext a
  refine Fin.ext ?_
  match a with
  | ⟨0, _⟩ =>
    show off 0 + 1 * (Shape.Idx.first h1 (0 : Fin 1)).val = (i 0).val
    have : (Shape.Idx.first h1 (0 : Fin 1)).val = 0 := by
      have := (Shape.Idx.first h1 (0 : Fin 1)).isLt
      have e : S1.size (0 : Fin 1) = 1 := by decide
      omega
    rw [this, hoff]; omega

/-- The grid's batch coordinate, as a 32-bit word and back, is itself. -/
theorem coord_word (i : grid0.Coords) : (Scalar.indexCast (BitVec.ofNat 32 (i 0).val)).toNat = (i 0).val := by
  show (BitVec.ofNat 32 (i 0).val).toNat = (i 0).val
  have h : (i 0).val < 16 := (i 0).isLt
  simp only [BitVec.toNat_ofNat]
  omega

/-- At grid point (b, n) the B window's block index is (table[b], 0, 0). -/
theorem transform_1_eq (i : grid0.Coords) :
    cc0_transform_1 k0_off1_inb numel1_S1 (tbl m) i = ![((tbl m 0 : IVec S16 32) (ix1 (batchOf i))).toNat, 0, 0] := by
  have e : (tbl m).at 0 (Rect.unit (s := S16) ![(Scalar.indexCast (BitVec.ofNat 32 (i 0).val)).toNat] S1.size (k0_off1_inb i)) numel1_S1
      = (tbl m 0 : IVec S16 32) (ix1 (batchOf i)) :=
    congrArg (tbl m 0 : IVec S16 32) (unit_idx i _ (coord_word i) _ _)
  unfold cc0_transform_1
  dsimp only
  rw [e]
  rfl

/-- At grid point (b, n) the A window's block index is (table[b], 0, 0). -/
theorem transform_2_eq (i : grid0.Coords) :
    cc0_transform_2 k0_off1_inb numel1_S1 (tbl m) i = ![((tbl m 0 : IVec S16 32) (ix1 (batchOf i))).toNat, 0, 0] := by
  have e : (tbl m).at 0 (Rect.unit (s := S16) ![(Scalar.indexCast (BitVec.ofNat 32 (i 0).val)).toNat] S1.size (k0_off1_inb i)) numel1_S1
      = (tbl m 0 : IVec S16 32) (ix1 (batchOf i)) :=
    congrArg (tbl m 0 : IVec S16 32) (unit_idx i _ (coord_word i) _ _)
  unfold cc0_transform_2
  dsimp only
  rw [e]
  rfl

/-- The pipeline's side condition: every table-indexed block of B and of A lies inside its 64-row array. -/
theorem ok_of_range (hid : ∀ b, (ids m b).toNat < 64) : Ok m := by
  have hw : ∀ i : grid0.Coords, ((tbl m 0 : IVec S16 32) (ix1 (batchOf i))).toNat < 64 := fun i => by
    rw [tbl_at m hid]; exact hid _
  refine ⟨fun i => ⟨fun a => ?_, Or.inl rfl⟩, fun i => ⟨fun a => ?_, Or.inl rfl⟩⟩
  · rw [transform_1_eq]
    have := hw i
    fin_cases a <;> simp [S1x64x4096, S64x64x4096] <;> omega
  · rw [transform_2_eq]
    have := hw i
    fin_cases a <;> simp [S1x4096x64, S64x4096x64] <;> omega

end Cert.KernelIdeal.Table

end
-- ==== Proof.KBlocks.lean ====
/-
  The blocks of the idealized kernel at a grid point.

  The grid is 16 × 8: point (b, n) handles rows n·256 … n·256 + 255 of batch b. Its x block and its output block are those
  rows of batch b; its B and A blocks are the whole rows table[b] of B and of A, table[b] the prefetched word for
  batch b. An element of a block sits in its array, on each axis, at block index × block size + its own coordinate.
  Where a block sits is stated for any admissible contents of the table, and used at the contents the program computes.
-/
import proofs.«410271_j54623394070736_3_alg».proof.Proof.KTable
import Idealize.ShloMosaic.Lib.Pipeline.Value

set_option maxRecDepth 16384

noncomputable section

namespace Cert.KernelIdeal.Blocks

open Cert.KernelIdeal Cert.KernelIdeal.Gen Cert.KernelIdeal.Table
open Idealize.ShloMosaic Idealize.ShloMosaic.TcCoe Idealize.SL.Sem Idealize.ShloMosaic.ValueIdx Cert.IdWords

variable {F : FTy → Type} [FloatOps F]

/-! ## Where a block's element sits, at any contents of the table -/

/-- The B window: block index (w, 0, 0), w the word its index map reads. -/
theorem emb_B (a : (pcfg0 (F := F)).Adm) (t : Fin (cfg0 a).N) (y : S1x64x4096.Idx) (j : S64x64x4096.Idx) (w : Nat)
    (hw : cc0_transform_1 k0_off1_inb numel1_S1 a.1 (grid0.coords t) = ![w, 0, 0])
    (h0 : (j 0).val = w) (h1 : (j 1).val = (y 1).val) (h2 : (j 2).val = (y 2).val) :
    (((cfg0 a).win 1).blk t).view.emb y = j := by
  refine funext fun b => Fin.ext ?_
  have hy0 : (y 0).val = 0 := by have := (y 0).isLt; have e : S1x64x4096.size 0 = 1 := rfl; omega
  have hi : ((cfg0 a).win 1).index t = cc0_transform_1 k0_off1_inb numel1_S1 a.1 (grid0.coords t) := rfl
  have hs : ((cfg0 a).win 1).size = ![1, 64, 4096] := rfl
  refine (((cfg0 a).win 1).rect_emb_val t y b).trans ?_
  rw [hi, hw, hs]
  match b with
  | ⟨0, _⟩ => show w * 1 + (y 0).val = (j 0).val; omega
  | ⟨1, _⟩ => show 0 * 64 + (y 1).val = (j 1).val; omega
  | ⟨2, _⟩ => show 0 * 4096 + (y 2).val = (j 2).val; omega

/-- The A window: block index (w, 0, 0), w the word its index map reads. -/
theorem emb_A (a : (pcfg0 (F := F)).Adm) (t : Fin (cfg0 a).N) (y : S1x4096x64.Idx) (j : S64x4096x64.Idx) (w : Nat)
    (hw : cc0_transform_2 k0_off1_inb numel1_S1 a.1 (grid0.coords t) = ![w, 0, 0])
    (h0 : (j 0).val = w) (h1 : (j 1).val = (y 1).val) (h2 : (j 2).val = (y 2).val) :
    (((cfg0 a).win 2).blk t).view.emb y = j := by
  refine funext fun b => Fin.ext ?_
  have hy0 : (y 0).val = 0 := by have := (y 0).isLt; have e : S1x4096x64.size 0 = 1 := rfl; omega
  have hi : ((cfg0 a).win 2).index t = cc0_transform_2 k0_off1_inb numel1_S1 a.1 (grid0.coords t) := rfl
  have hs : ((cfg0 a).win 2).size = ![1, 4096, 64] := rfl
  refine (((cfg0 a).win 2).rect_emb_val t y b).trans ?_
  rw [hi, hw, hs]
  match b with
  | ⟨0, _⟩ => show w * 1 + (y 0).val = (j 0).val; omega
  | ⟨1, _⟩ => show 0 * 4096 + (y 1).val = (j 1).val; omega
  | ⟨2, _⟩ => show 0 * 64 + (y 2).val = (j 2).val; omega

/-- The index map of the x window and of the output window at grid point (b, n): block (b, n, 0). -/
theorem transform_0_eq (i : grid0.Coords) : cc0_transform_0 i = ![(i 0).val, (i 1).val, 0] := by
  have h0 : (i 0).val < 16 := (i 0).isLt
  have h1 : (i 1).val < 8 := (i 1).isLt
  unfold cc0_transform_0
  dsimp only
  funext a
  fin_cases a <;> simp [BitVec.toNat_ofNat] <;> omega
theorem transform_3_eq (i : grid0.Coords) : cc0_transform_3 i = ![(i 0).val, (i 1).val, 0] := by
  have h0 : (i 0).val < 16 := (i 0).isLt
  have h1 : (i 1).val < 8 := (i 1).isLt
  unfold cc0_transform_3
  dsimp only
  funext a
  fin_cases a <;> simp [BitVec.toNat_ofNat] <;> omega

/-- The x window: element y of the block at (b, n) is (b, n·256 + y₁, y₂) of x. -/
theorem emb_X (a : (pcfg0 (F := F)).Adm) (t : Fin (cfg0 a).N) (y : S1x256x4096.Idx) (j : S16x2048x4096.Idx)
    (h0 : (j 0).val = (grid0.coords t 0).val) (h1 : (j 1).val = (grid0.coords t 1).val * 256 + (y 1).val)
    (h2 : (j 2).val = (y 2).val) :
    (((cfg0 a).win 0).blk t).view.emb y = j := by
  refine funext fun b => Fin.ext ?_
  have hy0 : (y 0).val = 0 := by have := (y 0).isLt; have e : S1x256x4096.size 0 = 1 := rfl; omega
  have hi : ((cfg0 a).win 0).index t = cc0_transform_0 (grid0.coords t) := rfl
  have hs : ((cfg0 a).win 0).size = ![1, 256, 4096] := rfl
  refine (((cfg0 a).win 0).rect_emb_val t y b).trans ?_
  rw [hi, transform_0_eq, hs]
  match b with
  | ⟨0, _⟩ => show (grid0.coords t 0).val * 1 + (y 0).val = (j 0).val; omega
  | ⟨1, _⟩ => show (grid0.coords t 1).val * 256 + (y 1).val = (j 1).val; omega
  | ⟨2, _⟩ => show 0 * 4096 + (y 2).val = (j 2).val; omega

/-- The output window: element y of the block at (b, n) is (b, n·256 + y₁, y₂) of the result. -/
theorem emb_O (a : (pcfg0 (F := F)).Adm) (t : Fin (cfg0 a).N) (y : S1x256x4096.Idx) (j : S16x2048x4096.Idx)
    (h0 : (j 0).val = (grid0.coords t 0).val) (h1 : (j 1).val = (grid0.coords t 1).val * 256 + (y 1).val)
    (h2 : (j 2).val = (y 2).val) :
    (((cfg0 a).win 3).blk t).view.emb y = j := by
  refine funext fun b => Fin.ext ?_
  have hy0 : (y 0).val = 0 := by have := (y 0).isLt; have e : S1x256x4096.size 0 = 1 := rfl; omega
  have hi : ((cfg0 a).win 3).index t = cc0_transform_3 (grid0.coords t) := rfl
  have hs : ((cfg0 a).win 3).size = ![1, 256, 4096] := rfl
  refine (((cfg0 a).win 3).rect_emb_val t y b).trans ?_
  rw [hi, transform_3_eq, hs]
  match b with
  | ⟨0, _⟩ => show (grid0.coords t 0).val * 1 + (y 0).val = (j 0).val; omega
  | ⟨1, _⟩ => show (grid0.coords t 1).val * 256 + (y 1).val = (j 1).val; omega
  | ⟨2, _⟩ => show 0 * 4096 + (y 2).val = (j 2).val; omega

/-! ## The input blocks at the table the program computes -/

variable (m : (ℓ : Loc nD τ sig) → Buf (Elt F) ℓ)

/-- The three input blocks at point t, at their literal shapes. -/
abbrev xblk (hO : Ok m) (c : Dev nD) (t : Fin (cfgM m hO).N) : Vec F S1x256x4096 .f32 := iblk m hO c 0 t
abbrev bblk (hO : Ok m) (c : Dev nD) (t : Fin (cfgM m hO).N) : Vec F S1x64x4096 .f32 := iblk m hO c 1 t
abbrev ablk (hO : Ok m) (c : Dev nD) (t : Fin (cfgM m hO).N) : Vec F S1x4096x64 .f32 := iblk m hO c 2 t

/-- Element y of the x block at (b, n) is element (b, n·256 + y₁, y₂) of x. -/
theorem xblk_apply (hO : Ok m) (c : Dev nD) (t : Fin (cfgM m hO).N) (y : S1x256x4096.Idx) (j : S16x2048x4096.Idx)
    (h0 : (j 0).val = (grid0.coords t 0).val) (h1 : (j 1).val = (grid0.coords t 1).val * 256 + (y 1).val)
    (h2 : (j 2).val = (y 2).val) :
    xblk m hO c t y = (V m c main_arg0 : FVec F S16x2048x4096 .f32) j := by
  show (V m c main_arg0 : FVec F S16x2048x4096 .f32) ((((cfgM m hO).win 0).blk t).view.emb y) = _
  exact congrArg _ (emb_X (adm m hO) t y j h0 h1 h2)

/-- Element y of the B block at (b, n) is element (table[b], y₁, y₂) of B. -/
theorem bblk_apply (hO : Ok m) (c : Dev nD) (t : Fin (cfgM m hO).N) (y : S1x64x4096.Idx) (j : S64x64x4096.Idx)
    (h0 : (j 0).val = ((tbl m 0 : IVec S16 32) (ix1 (batchOf (grid0.coords t)))).toNat)
    (h1 : (j 1).val = (y 1).val) (h2 : (j 2).val = (y 2).val) :
    bblk m hO c t y = (V m c main_arg3 : FVec F S64x64x4096 .f32) j := by
  show (V m c main_arg3 : FVec F S64x64x4096 .f32) ((((cfgM m hO).win 1).blk t).view.emb y) = _
  exact congrArg _ (emb_B (adm m hO) t y j _ (transform_1_eq m (grid0.coords t)) h0 h1 h2)

/-- Element y of the A block at (b, n) is element (table[b], y₁, y₂) of A. -/
theorem ablk_apply (hO : Ok m) (c : Dev nD) (t : Fin (cfgM m hO).N) (y : S1x4096x64.Idx) (j : S64x4096x64.Idx)
    (h0 : (j 0).val = ((tbl m 0 : IVec S16 32) (ix1 (batchOf (grid0.coords t)))).toNat)
    (h1 : (j 1).val = (y 1).val) (h2 : (j 2).val = (y 2).val) :
    ablk m hO c t y = (V m c main_arg2 : FVec F S64x4096x64 .f32) j := by
  show (V m c main_arg2 : FVec F S64x4096x64 .f32) ((((cfgM m hO).win 2).blk t).view.emb y) = _
  exact congrArg _ (emb_A (adm m hO) t y j _ (transform_2_eq m (grid0.coords t)) h0 h1 h2)

end Cert.KernelIdeal.Blocks

end
-- ==== Proof.KPiece.lean ====
/-
  What the body leaves in the output block: the payload of the three loaded blocks.
-/
import proofs.«410271_j54623394070736_3_alg».proof.Proof.Gen.KernelIdeal.Frame
import Idealize.ShloMosaic.Lib.Pipeline.Value

set_option maxRecDepth 16384

noncomputable section

namespace Cert.KernelIdeal.Piece

open Cert.KernelIdeal Cert.KernelIdeal.Gen
open Idealize.ShloMosaic Idealize.ShloMosaic.TcCoe Idealize.ShloMosaic.Tactic Idealize.SL.Sem

variable {F : FTy → Type} [FloatOps F]

theorem hz : (![0, 0, 0] : Fin 3 → Nat) = fun _ => 0 := funext fun a => by fin_cases a <;> rfl

/-- The one store covers the whole block, so the block read back is the stored payload. -/
theorem out_eq (c : Dev nD) (i : grid0.Coords) (arg3 : Memref sig .tc .vmem S1x256x4096 .f32) (harg3 : arg3.IsWhole)
    (arg4 : Memref sig .tc .vmem S1x64x4096 .f32) (harg4 : arg4.IsWhole) (arg5 : Memref sig .tc .vmem S1x4096x64 .f32)
    (harg5 : arg5.IsWhole) (arg6 : Memref sig .tc .vmem S1x256x4096 .f32) (harg6 : arg6.IsWhole)
    (x0 : Vec F S1x256x4096 .f32) (x1 : Vec F S1x64x4096 .f32) (x2 : Vec F S1x4096x64 .f32) (xt0 : TbBuf0 (F := F) c tbM0_0) :
    out0_A_3 c i arg3 harg3 arg4 harg4 arg5 harg5 arg6 harg6 x0 x1 x2 xt0 = k0_pay1 x0 x1 x2 := by
  unfold out0_A_3
  rw [View.read_writes_eq_canon _ _ _ (cover0_A_3 c i arg3 harg3 arg4 harg4 arg5 harg5 arg6 harg6 x0 x1 x2 xt0)]
  unfold kernelRun0_A
  dsimp only
  rw [View.canon_unit_zero hz]
  simp only [View.readAt_eq_ld, harg3.read_unread, harg4.read_unread, harg5.read_unread,
    View.ld_unit_zero (S := S1x256x4096) hz, View.ld_unit_zero (S := S1x64x4096) hz,
    View.ld_unit_zero (S := S1x4096x64) hz]

end Cert.KernelIdeal.Piece

end
-- ==== Proof.LoraSpec.lean ====
/-
  The low-rank update as one function of the arrays, over the extended reals.

  For batch b the adapter row is k = row b. With x : [16, 2048, 4096], B : [64, 64, 4096] (rank by input) and
  A : [64, 4096, 64] (output by rank), the result at (b, s, o) is

      ( ∑ r < 64, ( ∑ i < 4096, x[b, s, i] · B[k, r, i] ) · A[k, o, r] ) · 2⁻⁶ .

  One program scales the rank-64 intermediate before the second contraction, the other scales the final sum. The two
  agree on the extended reals because the scale is a nonnegative finite real: multiplication by such a number
  distributes over every sum of extended reals (no finiteness of the summands is needed), and the rest is
  commutativity and associativity of the product.
-/
import Idealize.ShloMosaic.Lib.ValueIdx
import Idealize.ShloMosaic.PureOps.Ideal.Laws

noncomputable section

open scoped BigOperators

namespace Cert.LoraSpec

open Idealize.ShloMosaic Idealize.ShloMosaic.ValueIdx

/-- The scale both programs carry as the f32 word of 1/64. -/
def scale : EReal := Ideal.ofBits .f32 0x3C800000#32

/-- The word denotes 2²³ · 2⁻²⁹, a real number. -/
theorem scale_eq : scale = ((8388608 * (2 ^ 29)⁻¹ : ℝ) : EReal) := by
  unfold scale
  simp [Ideal.ofBits, Ideal.ieee]

theorem scale_nonneg : 0 ≤ scale := by
  rw [scale_eq]; exact EReal.coe_nonneg.mpr (by positivity)

theorem scale_ne_top : scale ≠ ⊤ := by
  rw [scale_eq]; exact EReal.coe_ne_top _

/-- A nonnegative finite factor moves out of any finite sum of extended reals. -/
theorem sum_mul_scale {ι : Type} (S : Finset ι) (t : ι → EReal) : ∑ r ∈ S, t r * scale = (∑ r ∈ S, t r) * scale := by
  classical
  induction S using Finset.induction_on with
  | empty => simp
  | insert a S ha ih =>
    rw [Finset.sum_insert ha, Finset.sum_insert ha, ih,
      EReal.right_distrib_of_nonneg_of_ne_top scale_nonneg scale_ne_top]

/-- Scaling each term's first factor is scaling the whole contraction. -/
theorem scale_inside {ι : Type} [Fintype ι] (f g : ι → EReal) :
    ∑ r, (f r * scale) * g r = (∑ r, f r * g r) * scale := by
  rw [← sum_mul_scale]
  exact Finset.sum_congr rfl fun r _ => mul_right_comm _ _ _

/-- The rank-64 intermediate: row s of batch b of x against rank row r of adapter k of B. -/
def down (x : (⟨3, ![16, 2048, 4096]⟩ : Shape).Idx → EReal) (B : (⟨3, ![64, 64, 4096]⟩ : Shape).Idx → EReal)
    (k : Fin 64) (b : Fin 16) (s : Fin 2048) (r : Fin 64) : EReal :=
  ∑ i : Fin 4096, x (ix3 b s i) * B (ix3 k r i)

/-- The low-rank update with the scale applied last. -/
def lora (row : Fin 16 → Fin 64) (x : (⟨3, ![16, 2048, 4096]⟩ : Shape).Idx → EReal)
    (A : (⟨3, ![64, 4096, 64]⟩ : Shape).Idx → EReal) (B : (⟨3, ![64, 64, 4096]⟩ : Shape).Idx → EReal) :
    (⟨3, ![16, 2048, 4096]⟩ : Shape).Idx → EReal :=
  fun j => (∑ r : Fin 64, down x B (row (j 0)) (j 0) (j 1) r * A (ix3 (row (j 0)) (j 2) r)) * scale

/-- The same update with the scale applied to the intermediate. -/
theorem lora_scaled_inside (row : Fin 16 → Fin 64) (x : (⟨3, ![16, 2048, 4096]⟩ : Shape).Idx → EReal)
    (A : (⟨3, ![64, 4096, 64]⟩ : Shape).Idx → EReal) (B : (⟨3, ![64, 64, 4096]⟩ : Shape).Idx → EReal)
    (j : (⟨3, ![16, 2048, 4096]⟩ : Shape).Idx) :
    ∑ r : Fin 64, (down x B (row (j 0)) (j 0) (j 1) r * scale) * A (ix3 (row (j 0)) (j 2) r) = lora row x A B j :=
  scale_inside _ _

end Cert.LoraSpec

end
-- ==== Proof.KPayload.lean ====
/-
  What the kernel body stores, at an index, over the extended reals.

  The body loads a [1, 256, 4096] block of x, a [1, 64, 4096] block of B and a [1, 4096, 64] block of A, drops the unit
  axis of each, contracts the 4096-axis of x's block with that of B's (a [256, 64] intermediate), multiplies the
  intermediate by the scale, contracts its 64-axis with that of A's block, and stores the [256, 4096] result with the
  unit axis put back. Changes of float format are the identity on extended reals and both accumulators start at zero,
  so element (0, p, q) of what is stored is

      ∑ r < 64, ( ( ∑ i < 4096, x₀[0, p, i] · x₁[0, r, i] ) · scale ) · x₂[0, q, r] .
-/
import proofs.«410271_j54623394070736_3_alg».proof.Proof.Gen.KernelIdeal.Skeleton
import proofs.«410271_j54623394070736_3_alg».proof.Proof.LoraSpec
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen
open Idealize.ShloMosaic Idealize.ShloMosaic.ValueIdx

/-! ## The first contraction: [256, 4096] against [64, 4096] over the 4096-axis -/

theorem lhs_down_0 (i : S256x64.Idx) (q : dot_S256x4096_S64x4096_S256x64_1_1_0_0_n_n.contr.Idx) :
    (dot_S256x4096_S64x4096_S256x64_1_1_0_0_n_n.lhsIdx i q 0).val = (i 0).val := by
  unfold DotDims.lhsIdx
  rw [dif_neg (show ¬(0 : Fin S256x4096.rank) ∈ dot_S256x4096_S64x4096_S256x64_1_1_0_0_n_n.lhsBatch by decide),
    dif_pos (show (0 : Fin S256x4096.rank) ∈ dot_S256x4096_S64x4096_S256x64_1_1_0_0_n_n.lhsNonContracting by decide)]
  rfl
theorem lhs_down_1 (i : S256x64.Idx) (q : dot_S256x4096_S64x4096_S256x64_1_1_0_0_n_n.contr.Idx) :
    (dot_S256x4096_S64x4096_S256x64_1_1_0_0_n_n.lhsIdx i q 1).val = (q ⟨0, by decide⟩).val :=
  dot_S256x4096_S64x4096_S256x64_1_1_0_0_n_n.lhsIdx_val_of_single rfl i q
theorem rhs_down_0 (i : S256x64.Idx) (q : dot_S256x4096_S64x4096_S256x64_1_1_0_0_n_n.contr.Idx) :
    (dot_S256x4096_S64x4096_S256x64_1_1_0_0_n_n.rhsIdx i q 0).val = (i 1).val := by
  unfold DotDims.rhsIdx
  rw [dif_neg (show ¬(0 : Fin S64x4096.rank) ∈ dot_S256x4096_S64x4096_S256x64_1_1_0_0_n_n.rhsBatch by decide),
    dif_pos (show (0 : Fin S64x4096.rank) ∈ dot_S256x4096_S64x4096_S256x64_1_1_0_0_n_n.rhsNonContracting by decide)]
  rfl
theorem rhs_down_1 (i : S256x64.Idx) (q : dot_S256x4096_S64x4096_S256x64_1_1_0_0_n_n.contr.Idx) :
    (dot_S256x4096_S64x4096_S256x64_1_1_0_0_n_n.rhsIdx i q 1).val = (q ⟨0, by decide⟩).val :=
  dot_S256x4096_S64x4096_S256x64_1_1_0_0_n_n.rhsIdx_val_of_single rfl i q

/-- Element (p, r) of the first product into a zero accumulator: row p of the left operand against row r of the
    right one. -/
theorem down_apply {φ₁ φ₂ : FTy} (a : FVec Ideal S256x4096 φ₁) (b : FVec Ideal S64x4096 φ₂) (p : Fin 256) (r : Fin 64) :
    matmul dot_S256x4096_S64x4096_S256x64_1_1_0_0_n_n none a b (constant S256x64 .f32 0x00000000#32) (ix2 p r)
      = ∑ i : Fin 4096, a (ix2 p i) * b (ix2 r i) := by
  simp only [matmul]
  rw [Ideal.matmul_constant_zero_apply,
    ← Equiv.sum_comp (ValueIdx.contrEquiv1 dot_S256x4096_S64x4096_S256x64_1_1_0_0_n_n 4096 rfl rfl).symm]
  refine Finset.sum_congr rfl fun k _ => ?_
  have hk := ValueIdx.contrEquiv1_symm_val dot_S256x4096_S64x4096_S256x64_1_1_0_0_n_n 4096 rfl rfl k
  have el : dot_S256x4096_S64x4096_S256x64_1_1_0_0_n_n.lhsIdx (ix2 p r)
      ((ValueIdx.contrEquiv1 dot_S256x4096_S64x4096_S256x64_1_1_0_0_n_n 4096 rfl rfl).symm k) = ix2 p k :=
    funext fun a => Fin.ext (by
      match a with
      | ⟨0, _⟩ => exact lhs_down_0 _ _
      | ⟨1, _⟩ => exact (lhs_down_1 _ _).trans hk)
  have er : dot_S256x4096_S64x4096_S256x64_1_1_0_0_n_n.rhsIdx (ix2 p r)
      ((ValueIdx.contrEquiv1 dot_S256x4096_S64x4096_S256x64_1_1_0_0_n_n 4096 rfl rfl).symm k) = ix2 r k :=
    funext fun a => Fin.ext (by
      match a with
      | ⟨0, _⟩ => exact rhs_down_0 _ _
      | ⟨1, _⟩ => exact (rhs_down_1 _ _).trans hk)
  rw [el, er]

/-! ## The second contraction: [256, 64] against [4096, 64] over the 64-axis -/

theorem lhs_up_0 (i : S256x4096.Idx) (q : dot_S256x64_S4096x64_S256x4096_1_1_0_0_n_n.contr.Idx) :
    (dot_S256x64_S4096x64_S256x4096_1_1_0_0_n_n.lhsIdx i q 0).val = (i 0).val := by
  unfold DotDims.lhsIdx
  rw [dif_neg (show ¬(0 : Fin S256x64.rank) ∈ dot_S256x64_S4096x64_S256x4096_1_1_0_0_n_n.lhsBatch by decide),
    dif_pos (show (0 : Fin S256x64.rank) ∈ dot_S256x64_S4096x64_S256x4096_1_1_0_0_n_n.lhsNonContracting by decide)]
  rfl
theorem lhs_up_1 (i : S256x4096.Idx) (q : dot_S256x64_S4096x64_S256x4096_1_1_0_0_n_n.contr.Idx) :
    (dot_S256x64_S4096x64_S256x4096_1_1_0_0_n_n.lhsIdx i q 1).val = (q ⟨0, by decide⟩).val :=
  dot_S256x64_S4096x64_S256x4096_1_1_0_0_n_n.lhsIdx_val_of_single rfl i q
theorem rhs_up_0 (i : S256x4096.Idx) (q : dot_S256x64_S4096x64_S256x4096_1_1_0_0_n_n.contr.Idx) :
    (dot_S256x64_S4096x64_S256x4096_1_1_0_0_n_n.rhsIdx i q 0).val = (i 1).val := by
  unfold DotDims.rhsIdx
  rw [dif_neg (show ¬(0 : Fin S4096x64.rank) ∈ dot_S256x64_S4096x64_S256x4096_1_1_0_0_n_n.rhsBatch by decide),
    dif_pos (show (0 : Fin S4096x64.rank) ∈ dot_S256x64_S4096x64_S256x4096_1_1_0_0_n_n.rhsNonContracting by decide)]
  rfl
theorem rhs_up_1 (i : S256x4096.Idx) (q : dot_S256x64_S4096x64_S256x4096_1_1_0_0_n_n.contr.Idx) :
    (dot_S256x64_S4096x64_S256x4096_1_1_0_0_n_n.rhsIdx i q 1).val = (q ⟨0, by decide⟩).val :=
  dot_S256x64_S4096x64_S256x4096_1_1_0_0_n_n.rhsIdx_val_of_single rfl i q

/-- Element (p, q) of the second product into a zero accumulator: row p of the left operand against row q of the
    right one. -/
theorem up_apply {φ₁ φ₂ : FTy} (a : FVec Ideal S256x64 φ₁) (b : FVec Ideal S4096x64 φ₂) (p : Fin 256) (q : Fin 4096) :
    matmul dot_S256x64_S4096x64_S256x4096_1_1_0_0_n_n none a b (constant S256x4096 .f32 0x00000000#32) (ix2 p q)
      = ∑ r : Fin 64, a (ix2 p r) * b (ix2 q r) := by
  simp only [matmul]
  rw [Ideal.matmul_constant_zero_apply,
    ← Equiv.sum_comp (ValueIdx.contrEquiv1 dot_S256x64_S4096x64_S256x4096_1_1_0_0_n_n 64 rfl rfl).symm]
  refine Finset.sum_congr rfl fun k _ => ?_
  have hk := ValueIdx.contrEquiv1_symm_val dot_S256x64_S4096x64_S256x4096_1_1_0_0_n_n 64 rfl rfl k
  have el : dot_S256x64_S4096x64_S256x4096_1_1_0_0_n_n.lhsIdx (ix2 p q)
      ((ValueIdx.contrEquiv1 dot_S256x64_S4096x64_S256x4096_1_1_0_0_n_n 64 rfl rfl).symm k) = ix2 p k :=
    funext fun a => Fin.ext (by
      match a with
      | ⟨0, _⟩ => exact lhs_up_0 _ _
      | ⟨1, _⟩ => exact (lhs_up_1 _ _).trans hk)
  have er : dot_S256x64_S4096x64_S256x4096_1_1_0_0_n_n.rhsIdx (ix2 p q)
      ((ValueIdx.contrEquiv1 dot_S256x64_S4096x64_S256x4096_1_1_0_0_n_n 64 rfl rfl).symm k) = ix2 q k :=
    funext fun a => Fin.ext (by
      match a with
      | ⟨0, _⟩ => exact rhs_up_0 _ _
      | ⟨1, _⟩ => exact (rhs_up_1 _ _).trans hk)
  rw [el, er]

/-! ## The stored value -/

/-- Dropping the unit axis: (0, p, i) of the block is (p, i) of the matrix. -/
theorem cons_zero {n0 n1 : Nat} (p : Fin n0) (i : Fin n1) :
    (Fin.cons (⟨0, Nat.one_pos⟩ : Fin 1) (ix2 p i) : (⟨3, ![1, n0, n1]⟩ : Shape).Idx) = ix3 (0 : Fin 1) p i := by
  funext a
  match a with
  | ⟨0, _⟩ => rfl
  | ⟨1, _⟩ => rfl
  | ⟨2, _⟩ => rfl

/-- A [1, n₀, n₁] block viewed as an [n₀, n₁] matrix reads (0, p, i) at (p, i). -/
theorem dropUnit_apply {n0 n1 : Nat} {α : Type} (v : (⟨3, ![1, n0, n1]⟩ : Shape).Idx → α)
    (h : (⟨3, ![1, n0, n1]⟩ : Shape).ShapeCasts ⟨2, ![n0, n1]⟩) (p : Fin n0) (i : Fin n1) :
    shapeCast ⟨2, ![n0, n1]⟩ v h (ix2 p i) = v (ix3 (0 : Fin 1) p i) :=
  (shapeCast_dropUnit_apply ![n0, n1] v h (ix2 p i)).trans (congrArg v (cons_zero p i))

/-- Element (z, p, q) of the stored block, from the three loaded blocks. -/
theorem pay_apply (x0 : Vec Ideal S1x256x4096 .f32) (x1 : Vec Ideal S1x64x4096 .f32) (x2 : Vec Ideal S1x4096x64 .f32)
    (z : Fin 1) (p : Fin 256) (q : Fin 4096) :
    k0_pay1 (F := Ideal) x0 x1 x2 (ix3 z p q)
      = ∑ r : Fin 64, ((∑ i : Fin 4096, x0 (ix3 (0 : Fin 1) p i) * x1 (ix3 (0 : Fin 1) r i)) * Cert.LoraSpec.scale)
          * x2 (ix3 (0 : Fin 1) q r) := by
  unfold k0_pay1
  refine (shapeCast_addUnit_apply ![256, 4096] _ _ _).trans ?_
  have e : (fun a : Fin 2 => (ix3 z p q) a.succ) = ix2 p q := by
    funext a; match a with | ⟨0, _⟩ => rfl | ⟨1, _⟩ => rfl
  rw [e]
  refine (up_apply _ _ p q).trans ?_
  refine Finset.sum_congr rfl fun r _ => ?_
  have h1 : matmul (F := Ideal) dot_S256x4096_S64x4096_S256x64_1_1_0_0_n_n none
        (truncf (F := Ideal) .bf16 (shapeCast S256x4096 x0 shapeCasts_S1x256x4096_S256x4096 : FVec Ideal S256x4096 .f32) bitsLt_bf16_f32)
        (truncf (F := Ideal) .bf16 (shapeCast S64x4096 x1 shapeCasts_S1x64x4096_S64x4096 : FVec Ideal S64x4096 .f32) bitsLt_bf16_f32)
        (constant (F := Ideal) S256x64 .f32 0x00000000#32) (ix2 p r)
      = ∑ i : Fin 4096, x0 (ix3 (0 : Fin 1) p i) * x1 (ix3 (0 : Fin 1) r i) := by
    refine (down_apply _ _ p r).trans (Finset.sum_congr rfl fun i _ => ?_)
    show shapeCast S256x4096 x0 shapeCasts_S1x256x4096_S256x4096 (ix2 p i)
      * shapeCast S64x4096 x1 shapeCasts_S1x64x4096_S64x4096 (ix2 r i) = _
    exact congrArg₂ (· * ·) (dropUnit_apply x0 _ p i) (dropUnit_apply x1 _ r i)
  have h2 : shapeCast S4096x64 x2 shapeCasts_S1x4096x64_S4096x64 (ix2 q r) = x2 (ix3 (0 : Fin 1) q r) := by
    exact dropUnit_apply x2 _ q r
  show (matmul (F := Ideal) dot_S256x4096_S64x4096_S256x64_1_1_0_0_n_n none
        (truncf (F := Ideal) .bf16 (shapeCast S256x4096 x0 shapeCasts_S1x256x4096_S256x4096 : FVec Ideal S256x4096 .f32) bitsLt_bf16_f32)
        (truncf (F := Ideal) .bf16 (shapeCast S64x4096 x1 shapeCasts_S1x64x4096_S64x4096 : FVec Ideal S64x4096 .f32) bitsLt_bf16_f32)
        (constant (F := Ideal) S256x64 .f32 0x00000000#32) (ix2 p r) * Ideal.ofBits .f32 0x3C800000#32)
      * shapeCast S4096x64 x2 shapeCasts_S1x4096x64_S4096x64 (ix2 q r) = _
  rw [h1, h2]
  rfl

end Cert.KernelIdeal.Payload

end
-- ==== Proof.KValue.lean ====
/-
  The array the idealized kernel leaves, on ids in [0, 64).

  At grid point (b, n) the body's stored block, element by element, is the payload of the three input blocks; with the
  blocks read where they sit in x, B and A, element (0, p, q) of it is the low-rank update at (b, n·256 + p, q) with the
  scale inside, which is the update with the scale applied last. Every point writes its block back, and the 16 × 8 blocks
  of 256 rows cover the [16, 2048, 4096] result, so the result array ends holding the update everywhere.
-/
import proofs.«410271_j54623394070736_3_alg».proof.Proof.KBlocks
import proofs.«410271_j54623394070736_3_alg».proof.Proof.KPiece
import proofs.«410271_j54623394070736_3_alg».proof.Proof.KPayload
import proofs.«410271_j54623394070736_3_alg».proof.Proof.LoraSpec

set_option maxRecDepth 16384

noncomputable section

open scoped BigOperators

namespace Cert.KernelIdeal.KValue

open Cert.KernelIdeal Cert.KernelIdeal.Gen Cert.KernelIdeal.Table Cert.KernelIdeal.Blocks
open Idealize.ShloMosaic Idealize.ShloMosaic.TcCoe Idealize.SL.Sem Idealize.ShloMosaic.ValueIdx Cert.IdWords
open Idealize.ShloMosaic.Pipeline (Dat)

variable (m : (ℓ : Loc nD τ sig) → Buf (Elt Ideal) ℓ) (ρ : Dev nD → PrngReg)

/-- The float arrays the program is launched with. -/
abbrev xs (c : Dev nD) : FVec Ideal S16x2048x4096 .f32 := m ((c : Thread nD τ).loc main_arg0)
abbrev As (c : Dev nD) : FVec Ideal S64x4096x64 .f32 := m ((c : Thread nD τ).loc main_arg2)
abbrev Bs (c : Dev nD) : FVec Ideal S64x64x4096 .f32 := m ((c : Thread nD τ).loc main_arg3)

/-- What the result array is shown to hold: the low-rank update at the rows the ids name. -/
def result (hid : ∀ b, (ids m b).toNat < 64) (c : Dev nD) : FVec Ideal S16x2048x4096 .f32 :=
  Cert.LoraSpec.lora (rowOf (ids m) hid) (xs m c) (As m c) (Bs m c)

/-- Row p of tile n among the 2048 rows. -/
def rowIn (n : Fin 8) (p : Fin 256) : Fin 2048 := ⟨n.val * 256 + p.val, by omega⟩
/-- The row tile of a grid point. -/
def tileOf (i : grid0.Coords) : Fin 8 := i 1

/-- Element y of what point t stores is the update at the element of the result the block's element y sits at. -/
theorem stored_at (hid : ∀ b, (ids m b).toNat < 64) (c : Dev nD) (t : Fin (cfgM m (ok_of_range m hid)).N)
    (y : S1x256x4096.Idx) :
    k0_pay1 (F := Ideal) (xblk m (ok_of_range m hid) c t) (bblk m (ok_of_range m hid) c t) (ablk m (ok_of_range m hid) c t) y
      = result m hid c ((((cfgM m (ok_of_range m hid)).win 3).blk t).view.emb y) := by
  obtain ⟨z, p, q, rfl⟩ : ∃ (z : Fin 1) (p : Fin 256) (q : Fin 4096), y = ix3 z p q := ⟨y 0, y 1, y 2, eq_ix3 y⟩
  have he : (((cfgM m (ok_of_range m hid)).win 3).blk t).view.emb (ix3 z p q : S1x256x4096.Idx)
      = (ix3 (batchOf (grid0.coords t)) (rowIn (tileOf (grid0.coords t)) p) q : S16x2048x4096.Idx) :=
    emb_O (adm m (ok_of_range m hid)) t _ _ rfl rfl rfl
  have hrow : (rowOf (ids m) hid (batchOf (grid0.coords t))).val
      = ((tbl m 0 : IVec S16 32) (ix1 (batchOf (grid0.coords t)))).toNat := by
    rw [tbl_at m hid]; rfl
  have hx : ∀ i : Fin 4096, xblk m (ok_of_range m hid) c t (ix3 (0 : Fin 1) p i)
      = xs m c (ix3 (batchOf (grid0.coords t)) (rowIn (tileOf (grid0.coords t)) p) i) := fun i =>
    (xblk_apply m _ c t _ _ rfl rfl rfl).trans (congrFun (V_main_arg0 m c) _)
  have hb : ∀ (r : Fin 64) (i : Fin 4096), bblk m (ok_of_range m hid) c t (ix3 (0 : Fin 1) r i)
      = Bs m c (ix3 (rowOf (ids m) hid (batchOf (grid0.coords t))) r i) := fun r i =>
    (bblk_apply m _ c t _ _ hrow rfl rfl).trans (congrFun (V_main_arg3 m c) _)
  have ha : ∀ r : Fin 64, ablk m (ok_of_range m hid) c t (ix3 (0 : Fin 1) q r)
      = As m c (ix3 (rowOf (ids m) hid (batchOf (grid0.coords t))) q r) := fun r =>
    (ablk_apply m _ c t _ _ hrow rfl rfl).trans (congrFun (V_main_arg2 m c) _)
  rw [he, Cert.KernelIdeal.Payload.pay_apply]
  simp only [hx, hb, ha]
  exact Cert.LoraSpec.lora_scaled_inside (rowOf (ids m) hid) (xs m c) (As m c) (Bs m c)
    (ix3 (batchOf (grid0.coords t)) (rowIn (tileOf (grid0.coords t)) p) q)

/-- What the body leaves in the output block at point t is the payload of the point's three input blocks. -/
theorem outs_eq (hO : Ok m) (c : Dev nD) (t : Fin (cfgM m hO).N) :
    outsAt0 m hO c t = k0_pay1 (F := Ideal) (xblk m hO c t) (bblk m hO c t) (ablk m hO c t) := by
  unfold outsAt0
  exact Cert.KernelIdeal.Piece.out_eq (F := Ideal) c (grid0.coords t) (ms0_0 m hO t) (hs0_0 m hO t) (ms0_1 m hO t)
    (hs0_1 m hO t) (ms0_2 m hO t) (hs0_2 m hO t) (ms0_3 m hO t) (hs0_3 m hO t) (xblk m hO c t) (bblk m hO c t)
    (ablk m hO c t) (tbl m 0)

/-- What point t writes back is its block of the update. -/
theorem flushed_eq (hid : ∀ b, (ids m b).toNat < 64) (c : Dev nD) (t : Fin (cfgM m (ok_of_range m hid)).N) :
    (dats m (ok_of_range m hid) 0 c).flushed 3 t
      = (((cfgM m (ok_of_range m hid)).win 3).blk t).view.read (Elt Ideal) (result m hid c) := by
  show ((cfgM m (ok_of_range m hid)).win 3).cut (grid0.coords t) ((dats m (ok_of_range m hid) 0 c).after 3 t) = _
  rw [after0_3, outs_eq]
  funext y
  exact stored_at m hid c t y

/-! ## The blocks cover the result -/

/-- Every pair (b, n) is the coordinates of some grid point. -/
theorem point_of : ∀ (q0 : Fin 16) (q1 : Fin 8), ∃ t : Fin grid0.N,
    (grid0.coords t 0).val = q0.val ∧ (grid0.coords t 1).val = q1.val := by
  decide +kernel

/-- Every index of the result is in the block of a point that writes back: it is element (0, i₁ mod 256, i₂) of the
    block of point (i₀, i₁ / 256). -/
theorem cover_at (a : (pcfg0 (F := Ideal)).Adm) (i : S16x2048x4096.Idx) :
    ∃ t : Fin (cfg0 a).N, ((cfg0 a).win 3).flush t = true ∧ i ∈ (((cfg0 a).win 3).blk t).view.set := by
  have hi0 : (i 0).val < 16 := (i 0).isLt
  have hi1 : (i 1).val < 2048 := (i 1).isLt
  have hi2 : (i 2).val < 4096 := (i 2).isLt
  obtain ⟨t, ht0, ht1⟩ := point_of ⟨(i 0).val, hi0⟩ ⟨(i 1).val / 256, by omega⟩
  have h0 : (i 0).val = (grid0.coords t 0).val := ht0.symm
  have h1' : (grid0.coords t 1).val = (i 1).val / 256 := ht1
  refine ⟨t, flush0_3 a t, ?_⟩
  have he := emb_O a t
    (ix3 (0 : Fin 1) (⟨(i 1).val % 256, Nat.mod_lt _ (by decide)⟩ : Fin 256) (⟨(i 2).val, hi2⟩ : Fin 4096) : S1x256x4096.Idx)
    i h0 (by show (i 1).val = (grid0.coords t 1).val * 256 + (i 1).val % 256; omega) rfl
  rw [← he]
  exact (((cfg0 a).win 3).blk t).view.emb_mem_set _

/-! ## The result array, and the run -/

/-- The result array after the run holds the update. -/
theorem final (hid : ∀ b, (ids m b).toNat < 64) (c : Dev nD) :
    (dats m (ok_of_range m hid) 0 c).arrAt 3 (cfgM m (ok_of_range m hid)).N = result m hid c :=
  (dats m (ok_of_range m hid) 0 c).arrAt_eq_of_cover 3 (result m hid c) (fun t _ => flushed_eq m hid c t)
    (cover_at (adm m (ok_of_range m hid)))

/-- Every weakly fair execution of the idealized kernel ends with the result array at the update and the arguments
    unchanged. -/
theorem run (hid : ∀ b, (ids m b).toNat < 64) :
    θ_run defs (onTc (τ := τ) (main (F := Ideal))) ⟨m, fun _ => 0, ρ⟩ fun r => ∀ c : Dev nD,
      r.2.mem ((c.tc : Thread nD τ).loc main_v1) = result m hid c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 3).trans (final m hid c),
      ((h c).1 0).trans (((dats m (ok_of_range m hid) 0 c).arrAt_in 0 rfl _).trans
        ((A_eq m (ok_of_range m hid) c 0).trans (V_main_arg0 m c))),
      ((h c).2 main_arg1 (by decide : main_arg1 ∈ Pipeline.restRefs sig spec0)).trans (V_main_arg1 m c),
      ((h c).1 2).trans (((dats m (ok_of_range m hid) 0 c).arrAt_in 2 rfl _).trans
        ((A_eq m (ok_of_range m hid) c 2).trans (V_main_arg2 m c))),
      ((h c).1 1).trans (((dats m (ok_of_range m hid) 0 c).arrAt_in 1 rfl _).trans
        ((A_eq m (ok_of_range m hid) c 1).trans (V_main_arg3 m c)))⟩)
    (run_main m ρ (ok_of_range m hid))

end Cert.KernelIdeal.KValue

end
-- ==== Proof.LibGatherRows.lean ====
/-
  Whole rows of a rank-3 table, gathered by a column of start indices.

  jnp's `table[ids]` over a table of shape [N, R, C] and a vector of n indices prints as a `stablehlo.gather` whose start
  indices are the [n, 1] column of the indices, whose first operand axis is collapsed and start-indexed, and whose
  other two axes are offset axes taken whole (slice sizes [1, R, C]). Its element (p, r, c) is the table's element
  (k, r, c), where k is the p-th start index read as a signed integer and clamped into [0, N − 1]: a negative index reads
  row 0, an index past the end reads the last row.
-/
import Idealize.ShloMosaic.Lib.ValueIdx

namespace Cert.LibGatherRows

open Idealize.ShloMosaic Idealize.ShloMosaic.ValueIdx

/-- The gather's dimension numbers: offset axes 1 and 2, operand axis 0 collapsed and start-indexed, the index vector
    on axis 1 of the start indices, slices one row tall and whole in the other two axes. -/
abbrev rowDims (N R C n : Nat)
    (wf : GatherDims.WF ⟨3, ![N, R, C]⟩ ⟨2, ![n, 1]⟩ ⟨3, ![n, R, C]⟩ [1, 2] [0] [] [0] [] 1 ![1, R, C]) :
    GatherDims ⟨3, ![N, R, C]⟩ ⟨2, ![n, 1]⟩ ⟨3, ![n, R, C]⟩ :=
  { offsetDims := [1, 2], collapsedSliceDims := [0], operandBatchingDims := [], startIndicesBatchingDims := [],
    startIndexMap := [0], indexVectorDim := 1, sliceSizes := ![1, R, C], wf := wf }

/-- Where result position `p` reads its start index: row `p` of the column. -/
abbrev colIdx {n : Nat} (p : Fin n) : (⟨2, ![n, 1]⟩ : Shape).Idx := fun a => match a with
  | ⟨0, _⟩ => p
  | ⟨1, _⟩ => (0 : Fin 1)

section
variable {N R C n w : Nat}
  (wf : GatherDims.WF ⟨3, ![N, R, C]⟩ ⟨2, ![n, 1]⟩ ⟨3, ![n, R, C]⟩ [1, 2] [0] [] [0] [] 1 ![1, R, C])
  (idx : IVec ⟨2, ![n, 1]⟩ w) (p : Fin n) (r : Fin R) (c : Fin C)

/-- On the collapsed axis the operand index is the clamped start index: no batching and no offset coordinate there. -/
theorem operandIdx_row :
    ((rowDims N R C n wf).operandIdx (ix3 p r c) idx 0).val = min (idx (colIdx p)).toInt.toNat (N - 1) := by
  show (rowDims N R C n wf).start (ix3 p r c) idx 0 + (rowDims N R C n wf).batchCoord (ix3 p r c) 0
    + (rowDims N R C n wf).offCoord (ix3 p r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 3) ∈ (rowDims N R C n wf).startIndexMap from List.mem_singleton.mpr rfl)]
  have hsi : (rowDims N R C n wf).siIdx (ix3 p r c) ⟨List.idxOf (0 : Fin 3) (rowDims N R C n wf).startIndexMap,
      List.idxOf_lt_length_iff.2 (List.mem_singleton.mpr rfl)⟩ = colIdx p := by
    funext b; refine Fin.ext ?_
    match b with
    | ⟨0, _⟩ => rfl
    | ⟨1, _⟩ => rfl
  rw [hsi]
  rfl

/-- On the first offset axis the operand index is the result's second coordinate: the start there is 0. -/
theorem operandIdx_mid : ((rowDims N R C n wf).operandIdx (ix3 p r c) idx 1).val = r.val := by
  show (rowDims N R C n wf).start (ix3 p r c) idx 1 + (rowDims N R C n wf).batchCoord (ix3 p r c) 1
    + (rowDims N R C n wf).offCoord (ix3 p r c) 1 = _
  rw [GatherDims.batchCoord_eq_zero _ _ _ List.not_mem_nil]
  unfold GatherDims.start
  rw [dif_neg (show ¬(1 : Fin 3) ∈ ([0] : List (Fin 3)) by decide)]
  unfold GatherDims.offCoord
  rw [dif_pos ((GatherDims.mem_sKept _ _).mpr ⟨(show ¬(1 : Fin 3) ∈ ([0] : List (Fin 3)) by decide), List.not_mem_nil⟩)]
  have hi : List.idxOf (1 : Fin 3) (rowDims N R C n wf).sKept = 0 := rfl
  have key : ∀ (k : Nat) (h : k < ([1, 2] : List (Fin 3)).length), k = 0 → (([1, 2] : List (Fin 3))[k]'h) = (1 : Fin 3) := by
    intro k h e; subst e; rfl
  rw [key _ _ hi]
  simp only [Nat.zero_add]

/-- On the second offset axis the operand index is the result's third coordinate. -/
theorem operandIdx_last : ((rowDims N R C n wf).operandIdx (ix3 p r c) idx 2).val = c.val := by
  show (rowDims N R C n wf).start (ix3 p r c) idx 2 + (rowDims N R C n wf).batchCoord (ix3 p r c) 2
    + (rowDims N R C n wf).offCoord (ix3 p r c) 2 = _
  rw [GatherDims.batchCoord_eq_zero _ _ _ List.not_mem_nil]
  unfold GatherDims.start
  rw [dif_neg (show ¬(2 : Fin 3) ∈ ([0] : List (Fin 3)) by decide)]
  unfold GatherDims.offCoord
  rw [dif_pos ((GatherDims.mem_sKept _ _).mpr ⟨(show ¬(2 : Fin 3) ∈ ([0] : List (Fin 3)) by decide), List.not_mem_nil⟩)]
  have hi : List.idxOf (2 : Fin 3) (rowDims N R C n wf).sKept = 1 := rfl
  have key : ∀ (k : Nat) (h : k < ([1, 2] : List (Fin 3)).length), k = 1 → (([1, 2] : List (Fin 3))[k]'h) = (2 : Fin 3) := by
    intro k h e; subst e; rfl
  rw [key _ _ hi]
  simp only [Nat.zero_add]

end

/-- Element (p, r, c) of the gathered rows is element (k, r, c) of the table, k the p-th start index read signed and
    clamped into the table. -/
theorem gather_rows_apply {α : Type} {N R C n w : Nat} (hN : 0 < N)
    (wf : GatherDims.WF ⟨3, ![N, R, C]⟩ ⟨2, ![n, 1]⟩ ⟨3, ![n, R, C]⟩ [1, 2] [0] [] [0] [] 1 ![1, R, C])
    (x : (⟨3, ![N, R, C]⟩ : Shape).Idx → α) (idx : IVec ⟨2, ![n, 1]⟩ w) (p : Fin n) (r : Fin R) (c : Fin C) :
    Host.gather (rowDims N R C n wf) x idx (ix3 p r c)
      = x (ix3 ⟨min (idx (colIdx p)).toInt.toNat (N - 1), by omega⟩ r c) := by
  unfold Host.gather
  congr 1
  funext a
  refine Fin.ext ?_
  match a with
  | ⟨0, _⟩ => exact operandIdx_row wf idx p r c
  | ⟨1, _⟩ => exact operandIdx_mid wf idx p r c
  | ⟨2, _⟩ => exact operandIdx_last wf idx p r c

end Cert.LibGatherRows
-- ==== Proof.RefValue.lean ====
/-
  The reference, read at an index.

  Its two gathers take row ids[b] of B and of A for batch b: the index normalisation in front of each gather (add 64 to
  a negative id) and the gather's own clamp are both the identity on an id in [0, 64). The two contractions and the
  final scaling, read at (b, s, o), are then the low-rank update with the scale applied last.
-/
import proofs.«410271_j54623394070736_3_alg».proof.Proof.Gen.ReferenceIdeal.Read
import proofs.«410271_j54623394070736_3_alg».proof.Proof.LibGatherRows
import proofs.«410271_j54623394070736_3_alg».proof.Proof.LoraSpec
import proofs.«410271_j54623394070736_3_alg».proof.Proof.IdWords

noncomputable section

open scoped BigOperators

namespace Cert.ReferenceIdeal.RefValue

open Cert.ReferenceIdeal Cert.ReferenceIdeal.Gen Cert.ReferenceIdeal.Read
open Idealize.ShloMosaic Idealize.ShloMosaic.ValueIdx Cert.LibGatherRows Cert.IdWords

variable {F : FTy → Type} [FloatOps F]

/-- The start index the first gather reads for batch b is the id itself. -/
theorem startB (ids : IVec S16 32) (hid : ∀ b, (ids b).toNat < 64) (b : Fin 16) :
    val_main_v5 (F := F) ids (colIdx b) = ids (ix1 b) := by
  rw [val_main_v5_apply, val_main_v4_apply, val_main_v1_apply, val_main_v3_apply, val_main_v0_apply, val_main_c_apply]
  have e : idx_main_v5 (colIdx b) = ix1 b := by funext a; match a with | ⟨0, _⟩ => rfl
  rw [e]
  exact wrap_eq _ (hid _) _

/-- The start index the second gather reads for batch b is the id itself. -/
theorem startA (ids : IVec S16 32) (hid : ∀ b, (ids b).toNat < 64) (b : Fin 16) :
    val_main_v12 (F := F) ids (colIdx b) = ids (ix1 b) := by
  rw [val_main_v12_apply, val_main_v11_apply, val_main_v8_apply, val_main_v10_apply, val_main_v7_apply, val_main_c_1_apply]
  have e : idx_main_v12 (colIdx b) = ix1 b := by funext a; match a with | ⟨0, _⟩ => rfl
  rw [e]
  exact wrap_eq _ (hid _) _

/-- The gathered B for batch b is row ids[b] of B. -/
theorem gatherB_apply (ids : IVec S16 32) (hid : ∀ b, (ids b).toNat < 64) (B : FVec F S64x64x4096 .f32)
    (b : Fin 16) (r : Fin 64) (i : Fin 4096) :
    val_main_v6 (F := F) ids B (ix3 b r i) = B (ix3 (rowOf ids hid b) r i) := by
  unfold val_main_v6
  have hd : gather_S64x64x4096_S16x1_S16x64x4096_12_0_n_n_0_1_1644096
      = rowDims 64 64 4096 16 Facts₀.gather_S64x64x4096_S16x1_S16x64x4096_12_0_n_n_0_1_1644096_wf := rfl
  rw [hd, gather_rows_apply (by decide)]
  congr 2
  refine Fin.ext ?_
  show min (val_main_v5 (F := F) ids (colIdx b)).toInt.toNat (64 - 1) = (ids (ix1 b)).toNat
  rw [startB ids hid b]
  exact clamp_row _ (hid _)

/-- The gathered A for batch b is row ids[b] of A. -/
theorem gatherA_apply (ids : IVec S16 32) (hid : ∀ b, (ids b).toNat < 64) (A : FVec F S64x4096x64 .f32)
    (b : Fin 16) (o : Fin 4096) (r : Fin 64) :
    val_main_v13 (F := F) ids A (ix3 b o r) = A (ix3 (rowOf ids hid b) o r) := by
  unfold val_main_v13
  have hd : gather_S64x4096x64_S16x1_S16x4096x64_12_0_n_n_0_1_1409664
      = rowDims 64 4096 64 16 Facts₀.gather_S64x4096x64_S16x1_S16x4096x64_12_0_n_n_0_1_1409664_wf := rfl
  rw [hd, gather_rows_apply (by decide)]
  congr 2
  refine Fin.ext ?_
  show min (val_main_v12 (F := F) ids (colIdx b)).toInt.toNat (64 - 1) = (ids (ix1 b)).toNat
  rw [startA ids hid b]
  exact clamp_row _ (hid _)

/-- The reference's result is the low-rank update at the rows the ids name. -/
theorem result_eq (x : FVec Ideal S16x2048x4096 .f32) (ids : IVec S16 32) (hid : ∀ b, (ids b).toNat < 64)
    (A : FVec Ideal S64x4096x64 .f32) (B : FVec Ideal S64x64x4096 .f32) :
    val_main_v17 (F := Ideal) x ids A B = Cert.LoraSpec.lora (rowOf ids hid) x A B := by
  funext j
  obtain ⟨b, s, o, rfl⟩ : ∃ (b : Fin 16) (s : Fin 2048) (o : Fin 4096), j = ix3 b s o := ⟨j 0, j 1, j 2, eq_ix3 j⟩
  have e15l : ∀ k : Fin 64, lidx_main_v15 (ix3 b s o) k = ix3 b s k := fun k => by
    funext a; match a with | ⟨0, _⟩ => rfl | ⟨1, _⟩ => rfl | ⟨2, _⟩ => rfl
  have e15r : ∀ k : Fin 64, ridx_main_v15 (ix3 b s o) k = ix3 b o k := fun k => by
    funext a; match a with | ⟨0, _⟩ => rfl | ⟨1, _⟩ => rfl | ⟨2, _⟩ => rfl
  have e14l : ∀ (k : Fin 64) (i : Fin 4096), lidx_main_v14 (ix3 b s k) i = ix3 b s i := fun k i => by
    funext a; match a with | ⟨0, _⟩ => rfl | ⟨1, _⟩ => rfl | ⟨2, _⟩ => rfl
  have e14r : ∀ (k : Fin 64) (i : Fin 4096), ridx_main_v14 (ix3 b s k) i = ix3 b k i := fun k i => by
    funext a; match a with | ⟨0, _⟩ => rfl | ⟨1, _⟩ => rfl | ⟨2, _⟩ => rfl
  rw [val_main_v17_apply, val_main_v15_apply, val_main_v16_apply, val_main_cst_apply]
  simp only [e15l, e15r, val_main_v14_apply, e14l, e14r, gatherB_apply ids hid, gatherA_apply ids hid]
  rfl

end Cert.ReferenceIdeal.RefValue

end
-- ==== Proof.lean ====
/-
  A batched low-rank update: out[b] = 2⁻⁶ · (x[b] · B[k]ᵀ) · A[k]ᵀ with k = adapter_ids[b], for x : [16, 2048, 4096],
  B : [64, 64, 4096], A : [64, 4096, 64] — the kernel against its jnp reference, over the extended reals, on adapter
  ids in [0, 64).

  The kernel clips the ids to [0, 63], hands them to its pipeline as a scalar table, and at grid point (b, n) fetches
  rows n·256 … n·256 + 255 of x[b] together with the whole rows table[b] of B and of A; its body contracts the x block
  with the B block over the 4096-axis, scales the [256, 64] intermediate by 2⁻⁶, and contracts it with the A block over
  the 64-axis. The reference normalises a negative id by adding 64, gathers rows of B and of A (the gather clamps its
  start index into the table), contracts twice and scales the result last.

  On an id in [0, 64) the clip, the normalisation and the clamp are all the identity, so both programs read row ids[b]
  of each table. The two orders of scaling agree on the extended reals because 2⁻⁶ is a nonnegative finite real:
  multiplying by it distributes over any sum of extended reals, so no finiteness of x, A or B is used. Outside [0, 64)
  the programs differ (a negative id selects row id + 64 in the reference and row 0 in the kernel), which is why the
  range is part of the precondition.

  The frames: the reference's is its run with the result dropped; each kernel's is its generated frame, which holds when
  every table-indexed block lies inside its 64-row array — true because the table is the id vector. The idealized
  kernel is the printed kernel read at the ideal values with no rewrite applied, so nothing is owed for it.
-/
import proofs.«410271_j54623394070736_3_alg».proof.Defs
import proofs.«410271_j54623394070736_3_alg».proof.Proof.Gen.Kernel
import proofs.«410271_j54623394070736_3_alg».proof.Proof.Gen.Kernel.Skeleton
import proofs.«410271_j54623394070736_3_alg».proof.Proof.Gen.Kernel.Launch
import proofs.«410271_j54623394070736_3_alg».proof.Proof.Gen.Kernel.Points
import proofs.«410271_j54623394070736_3_alg».proof.Proof.Gen.Kernel.Frame
import proofs.«410271_j54623394070736_3_alg».proof.Proof.Gen.KernelIdeal
import proofs.«410271_j54623394070736_3_alg».proof.Proof.Gen.KernelIdeal.Skeleton
import proofs.«410271_j54623394070736_3_alg».proof.Proof.Gen.KernelIdeal.Launch
import proofs.«410271_j54623394070736_3_alg».proof.Proof.Gen.KernelIdeal.Points
import proofs.«410271_j54623394070736_3_alg».proof.Proof.Gen.KernelIdeal.Frame
import proofs.«410271_j54623394070736_3_alg».proof.Proof.Gen.ReferenceIdeal
import proofs.«410271_j54623394070736_3_alg».proof.Proof.Gen.ReferenceIdeal.Run
import proofs.«410271_j54623394070736_3_alg».proof.Proof.Gen.ReferenceIdeal.Read
import proofs.«410271_j54623394070736_3_alg».proof.Proof.Gen.Pre_finite_inputs
import proofs.«410271_j54623394070736_3_alg».proof.Proof.PreRange
import proofs.«410271_j54623394070736_3_alg».proof.Proof.KTableBits
import proofs.«410271_j54623394070736_3_alg».proof.Proof.KValue
import proofs.«410271_j54623394070736_3_alg».proof.Proof.RefValue
import Idealize.ShloMosaic.Adequacy
import Idealize.ShloMosaic.Init

noncomputable section

namespace Cert.Proof

open Idealize.ShloMosaic Idealize.ShloMosaic.TcCoe Idealize.SL.Sem

/-- Under the precondition every adapter id of the word-level kernel's launch memory is below 64. -/
theorem ids_lt_kernel (m : (ℓ : Loc Cert.Kernel.nD Cert.Kernel.τ Cert.Kernel.sig) → Buf (Elt Bits) ℓ)
    (h : Cert.Pre_Kernel m) : ∀ b, (Cert.Kernel.Table.ids m b).toNat < 64 :=
  fun b => Cert.PreRange.id_lt _ _ _ _ (h 0) b

/-- Under the precondition every adapter id of the idealized kernel's launch memory is below 64. -/
theorem ids_lt_ideal (m : (ℓ : Loc Cert.KernelIdeal.nD Cert.KernelIdeal.τ Cert.KernelIdeal.sig) → Buf (Elt Ideal) ℓ)
    (h : Cert.Pre_KernelIdeal m) : ∀ b, (Cert.KernelIdeal.Table.ids m b).toNat < 64 :=
  fun b => Cert.PreRange.id_lt _ _ _ _ (h 0) b

/-- The word-level kernel runs and keeps its arguments: its table-indexed blocks are inside their arrays. -/
theorem frame_kernel : Cert.frame_Kernel := fun m ρ h =>
  Cert.Kernel.Gen.frame m ρ (Cert.Kernel.Table.ok_of_range m (ids_lt_kernel m h))

/-- The idealized kernel runs and keeps its arguments, for the same reason. -/
theorem frame_ideal : Cert.frame_KernelIdeal := fun m ρ h =>
  Cert.KernelIdeal.Gen.frame m ρ (Cert.KernelIdeal.Table.ok_of_range m (ids_lt_ideal m h))

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the low-rank update at the rows the ids name. -/
theorem algebraic : Cert.algebraic_KernelIdeal_ReferenceIdeal := by
  intro m ρ m' ρ' hpre hagree
  have hid := ids_lt_ideal m hpre
  refine ⟨fun c => Cert.KernelIdeal.KValue.result m hid c, Cert.KernelIdeal.KValue.run m ρ hid, ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim _ _
  rw [(hagree 0).1, (hagree 0).2.1, (hagree 0).2.2.1, (hagree 0).2.2.2]
  exact Cert.ReferenceIdeal.RefValue.result_eq _ _ hid _ _

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
